-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  bitsLt_bf16_f32 : FTy.bits .bf16 < FTy.bits .f32
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.RbfSpec.lean ====
/-
  The Gaussian (radial basis function) kernel matrix of two families of 512-dimensional points, as ONE function of the
  two argument arrays, index by index, on the extended reals:

      K[p, q] = exp (−1 · max ((‖x_p‖² + ‖y_q‖²) − 2 · ⟨x_p, y_q⟩) 0)

  with ‖x_p‖² = ∑ₖ x[p,k]², ⟨x_p, y_q⟩ = ∑ₖ x[p,k] · y[q,k], and the three float literals (−1, 2, 0) kept as the
  binary words both programs print. The squared distance is taken through its expansion, in that grouping; both
  programs group it so, which is why no law of the extended reals beyond reading each operation at an index is needed
  (and none that asks the entries to be finite).
  The function is stated once for any number of rows on each side, so that a tile of the matrix computed from a tile
  of rows of `x` and a tile of rows of `y` is the same expression as the whole matrix computed from the whole arrays.
-/
import Idealize.ShloMosaic.PureOps.Ideal
import Idealize.ShloMosaic.Lib.ValueIdx

noncomputable section

namespace Cert.Rbf

open Idealize.ShloMosaic Idealize.ShloMosaic.ValueIdx

/-- From the two squared norms `a`, `b` and the inner product `d`: `exp (−1 · max ((a + b) − 2 · d) 0)`. -/
def gauss (a b d : EReal) : EReal :=
  Ideal.exp (Ideal.ofBits .f32 0xBF800000#32 * max ((a + b) - Ideal.ofBits .f32 0x40000000#32 * d) (Ideal.ofBits .f32 0x00000000#32))

/-- The squared norm of row `p` of an array of 512-dimensional points. -/
def sqnorm {n : ℕ} (x : (⟨2, ![n, 512]⟩ : Shape).Idx → EReal) (p : Fin n) : EReal :=
  ∑ k : Fin 512, x (ix2 p k) * x (ix2 p k)

/-- The inner product of row `p` of one array with row `q` of another. -/
def inner {n m : ℕ} (x : (⟨2, ![n, 512]⟩ : Shape).Idx → EReal) (y : (⟨2, ![m, 512]⟩ : Shape).Idx → EReal) (p : Fin n) (q : Fin m) : EReal :=
  ∑ k : Fin 512, x (ix2 p k) * y (ix2 q k)

/-- The kernel value of row `p` of `x` against row `q` of `y`. -/
def rbf {n m : ℕ} (x : (⟨2, ![n, 512]⟩ : Shape).Idx → EReal) (y : (⟨2, ![m, 512]⟩ : Shape).Idx → EReal) (p : Fin n) (q : Fin m) : EReal :=
  gauss (sqnorm x p) (sqnorm y q) (inner x y p q)

/-- The whole 8192 × 8192 kernel matrix of the two 8192 × 512 argument arrays. -/
def G (x y : (⟨2, ![8192, 512]⟩ : Shape).Idx → EReal) : (⟨2, ![8192, 8192]⟩ : Shape).Idx → EReal :=
  fun i => rbf x y (i 0) (i 1)

theorem G_ix2 (x y : (⟨2, ![8192, 512]⟩ : Shape).Idx → EReal) (p q : Fin 8192) : G x y (ix2 p q) = rbf x y p q := rfl

/-- A tile's value depends only on the rows it reads: if tile row `r` of `x'` is row `p` of `x` and tile row `s` of `y'` is
    row `q` of `y`, entry by entry, the kernel values agree. -/
theorem rbf_congr {n m n' m' : ℕ} (x : (⟨2, ![n, 512]⟩ : Shape).Idx → EReal) (y : (⟨2, ![m, 512]⟩ : Shape).Idx → EReal)
    (x' : (⟨2, ![n', 512]⟩ : Shape).Idx → EReal) (y' : (⟨2, ![m', 512]⟩ : Shape).Idx → EReal)
    (p : Fin n) (q : Fin m) (r : Fin n') (s : Fin m')
    (hx : ∀ k : Fin 512, x' (ix2 r k) = x (ix2 p k)) (hy : ∀ k : Fin 512, y' (ix2 s k) = y (ix2 q k)) :
    rbf x' y' r s = rbf x y p q := by
  unfold rbf sqnorm inner
  simp only [hx, hy]

end Cert.Rbf

end
-- ==== Proof.RbfPayload.lean ====
/-
  What the kernel body stores, read at an entry (p, q) of a 1024 × 1024 tile: the kernel value `rbf` of row p of the
  tile of `x` it loaded against row q of the tile of `y` it loaded.
  The body's operations that are not entrywise, each read at an index:
  · a lane sum kept as a column ([1024,512] → [1024] → [1024,1]) is, at (p, 0), the sum over k of the operand at (p, k);
  · that column broadcast to the tile is, at (p, q), the column at (p, 0) — the squared norms of `x`'s rows run down
    the tile's rows;
  · the same column transposed to a row ([1024,1] → [1,1024]) and broadcast is, at (p, q), the column at (q, 0) — the
    squared norms of `y`'s rows run along the tile's columns;
  · the matrix product contracting the 512-axis of both operands, accumulated into zeros, is at (p, q) the sum over k of
    the left operand at (p, k) times the right operand at (q, k): rows against rows.
  The narrowing of the product's operands to bf16 is the identity on the extended reals. Everything else (the sum of
  the two norms, the doubling, the subtraction, the clamp at 0, the sign and the exponential) acts entry by entry.
-/
import proofs.«143935_j65481071397762_1_alg».proof.Proof.Gen.KernelIdeal.Skeleton
import proofs.«143935_j65481071397762_1_alg».proof.Proof.RbfSpec
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Payload

open Cert.KernelIdeal Cert.KernelIdeal.Gen Idealize.ShloMosaic Idealize.ShloMosaic.ValueIdx Cert.Rbf

/-- A lane sum kept as a column, at (p, u) with u the unit coordinate: the sum over the lanes of row p. -/
theorem colsum_apply (v : FVec Ideal S1024x512 .f32) (p : Fin 1024) (u : Fin 1) :
    shapeCast S1024x1 (multiReduction .add [1] S1024 v 0x00000000#32 reduces_S1024x512_S1024 (.inl rfl) rfl) shapeCasts_S1024_S1024x1 (ix2 p u)
      = ∑ k : Fin 512, v (ix2 p k) := by
  refine (shapeCast_apply _ shapeCasts_S1024_S1024x1 (ix2 p u) (ix1 p) ?_).trans ?_
  · rw [Shape.rowMajor_val_one, Shape.rowMajor_val_two]
    show p.val = p.val * 1 + u.val
    omega
  · refine (Ideal.multiReduction_add_single v 0x00000000#32 reduces_S1024x512_S1024 (.inl rfl) rfl (ix1 p)).trans ?_
    refine Finset.sum_congr rfl fun k _ => ?_
    exact congrArg v (funext fun a => Fin.ext (by match a with | ⟨0, _⟩ => rfl | ⟨1, _⟩ => rfl))

/-- A column broadcast to the tile reads, at (p, q), the column's entry of row p. -/
theorem bcast_col_apply (w : FVec Ideal S1024x1 .f32) (p q : Fin 1024) :
    broadcastTo S1024x1024 w broadcasts_S1024x1_S1024x1024 (ix2 p q) = w (ix2 p (0 : Fin 1)) := by
  refine broadcastTo_apply w broadcasts_S1024x1_S1024x1024 (ix2 p q) (ix2 p (0 : Fin 1)) fun ax => ?_
  match ax with
  | ⟨0, _⟩ => show p.val = if (1024 : Nat) = 1 then 0 else p.val; rw [if_neg (by decide)]
  | ⟨1, _⟩ => show 0 = if (1 : Nat) = 1 then 0 else q.val; rw [if_pos rfl]

/-- A column transposed to a row and broadcast to the tile reads, at (p, q), the column's entry of row q. -/
theorem bcast_row_apply (w : FVec Ideal S1024x1 .f32) (p q : Fin 1024) :
    broadcastTo S1024x1024 (transpose S1x1024 [1, 0] w transposes_S1024x1_p1_0_S1x1024) broadcasts_S1x1024_S1024x1024 (ix2 p q)
      = w (ix2 q (0 : Fin 1)) :=
  (broadcastTo_1b_ab_apply _ broadcasts_S1x1024_S1024x1024 p q).trans
    (transpose_ix2_apply w transposes_S1024x1_p1_0_S1x1024 (0 : Fin 1) q)

theorem lhs_dot_0 (i : S1024x1024.Idx) (c : dot_S1024x512_S1024x512_S1024x1024_1_1_0_0_n_n.contr.Idx) :
    (dot_S1024x512_S1024x512_S1024x1024_1_1_0_0_n_n.lhsIdx i c 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_dot_1 (i : S1024x1024.Idx) (c : dot_S1024x512_S1024x512_S1024x1024_1_1_0_0_n_n.contr.Idx) :
    (dot_S1024x512_S1024x512_S1024x1024_1_1_0_0_n_n.lhsIdx i c 1).val = (c ⟨0, by decide⟩).val :=
  dot_S1024x512_S1024x512_S1024x1024_1_1_0_0_n_n.lhsIdx_val_of_single rfl i c
theorem rhs_dot_0 (i : S1024x1024.Idx) (c : dot_S1024x512_S1024x512_S1024x1024_1_1_0_0_n_n.contr.Idx) :
    (dot_S1024x512_S1024x512_S1024x1024_1_1_0_0_n_n.rhsIdx i c 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_dot_1 (i : S1024x1024.Idx) (c : dot_S1024x512_S1024x512_S1024x1024_1_1_0_0_n_n.contr.Idx) :
    (dot_S1024x512_S1024x512_S1024x1024_1_1_0_0_n_n.rhsIdx i c 1).val = (c ⟨0, by decide⟩).val :=
  dot_S1024x512_S1024x512_S1024x1024_1_1_0_0_n_n.rhsIdx_val_of_single rfl i c

/-- The product of the two tiles, contracting the 512-axis of both, into a zero accumulator: rows against rows. -/
theorem dot_apply {φ : FTy} (a b : FVec Ideal S1024x512 φ) (p q : Fin 1024) :
    matmul dot_S1024x512_S1024x512_S1024x1024_1_1_0_0_n_n none a b (constant S1024x1024 .f32 0x00000000#32) (ix2 p q)
      = ∑ k : Fin 512, a (ix2 p k) * b (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun ax => Fin.ext (by
    match ax with
    | ⟨0, _⟩ => exact lhs_dot_0 _ _
    | ⟨1, _⟩ => exact (lhs_dot_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun ax => Fin.ext (by
    match ax with
    | ⟨0, _⟩ => exact rhs_dot_0 _ _
    | ⟨1, _⟩ => exact (rhs_dot_1 _ _).trans hk)
  rw [el, er]

/-- The squared norms of the loaded tile of `x`, as a column broadcast to the tile, at (p, q): the squared norm of row p. -/
theorem xnorm_apply (x0 : FVec Ideal S1024x512 .f32) (p q : Fin 1024) :
    broadcastTo S1024x1024 (shapeCast S1024x1 (multiReduction .add [1] S1024 (mulf (F := Ideal) x0 x0) 0x00000000#32 reduces_S1024x512_S1024 (.inl rfl) rfl) shapeCasts_S1024_S1024x1) broadcasts_S1024x1_S1024x1024 (ix2 p q)
      = sqnorm x0 p :=
  ((bcast_col_apply _ p q).trans (colsum_apply (mulf (F := Ideal) x0 x0) p 0)).trans rfl

/-- The squared norms of the loaded tile of `y`, as a column transposed to a row and broadcast, at (p, q): the squared
    norm of row q. -/
theorem ynorm_apply (x1 : FVec Ideal S1024x512 .f32) (p q : Fin 1024) :
    broadcastTo S1024x1024 (transpose S1x1024 [1, 0] (shapeCast S1024x1 (multiReduction .add [1] S1024 (mulf (F := Ideal) x1 x1) 0x00000000#32 reduces_S1024x512_S1024 (.inl rfl) rfl) shapeCasts_S1024_S1024x1) transposes_S1024x1_p1_0_S1x1024) broadcasts_S1x1024_S1024x1024 (ix2 p q)
      = sqnorm x1 q :=
  ((bcast_row_apply _ p q).trans (colsum_apply (mulf (F := Ideal) x1 x1) q 0)).trans rfl

/-- The product of the two loaded tiles, narrowed to bf16 (the identity on the extended reals), at (p, q): the inner
    product of row p of the tile of `x` with row q of the tile of `y`. -/
theorem prod_apply (x0 x1 : FVec Ideal S1024x512 .f32) (p q : Fin 1024) :
    matmul dot_S1024x512_S1024x512_S1024x1024_1_1_0_0_n_n none (truncf (F := Ideal) .bf16 x0 bitsLt_bf16_f32) (truncf (F := Ideal) .bf16 x1 bitsLt_bf16_f32) (constant S1024x1024 .f32 0x00000000#32) (ix2 p q)
      = inner x0 x1 p q :=
  (dot_apply (truncf (F := Ideal) .bf16 x0 bitsLt_bf16_f32) (truncf (F := Ideal) .bf16 x1 bitsLt_bf16_f32) p q).trans rfl

/-- THE PAYLOAD AT AN ENTRY: what the body stores at (p, q) of the tile is the kernel value of row p of the loaded
    tile of `x` against row q of the loaded tile of `y`. -/
theorem pay_apply (x0 x1 : Vec Ideal S1024x512 .f32) (p q : Fin 1024) :
    k0_pay1 (F := Ideal) x0 x1 (ix2 p q) = rbf x0 x1 p q := by
  unfold k0_pay1 rbf
  show gauss _ _ _ = _
  rw [xnorm_apply, ynorm_apply, prod_apply]

end Cert.Rbf.Payload

end
-- ==== Proof.RbfKernel.lean ====
/-
  From tiles to the whole matrix. The grid is 8 × 8; at point t the output's tile is tile (a, b) of the 8192 × 8192
  matrix, 1024 × 1024 entries, the first input's tile is row-tile a of `x` (all 512 lanes) and the second's is row-tile b
  of `y`. So entry (r, s) of what point t writes back is the kernel value of row r of row-tile a of `x` against row s of
  row-tile b of `y`, which is the kernel value of row a·1024 + r of `x` against row b·1024 + s of `y`: entry
  (a·1024 + r, b·1024 + s) of the whole kernel matrix `G`. Every point writes its tile back, and the 64 tiles cover the
  matrix (the tile holding (i, j) is (i / 1024, j / 1024)), so after the run the output array is `G` of the arguments.
-/
import proofs.«143935_j65481071397762_1_alg».proof.Proof.Gen.KernelIdeal.Value
import proofs.«143935_j65481071397762_1_alg».proof.Proof.RbfPayload

noncomputable section

namespace Cert.Rbf.Kernel

open Cert.KernelIdeal Cert.KernelIdeal.Gen Idealize.ShloMosaic Idealize.ShloMosaic.TcCoe Idealize.SL.Sem
open Idealize.ShloMosaic.ValueIdx Cert.Rbf
open Idealize.ShloMosaic.Pipeline (Dat)

variable (m : (ℓ : Loc nD τ sig) → Buf (Elt Ideal) ℓ) (ρ : Dev nD → PrngReg)

theorem origin_eq : (![0, 0] : Fin 2 → Nat) = fun _ => 0 := funext fun a => by fin_cases a <;> rfl

/-- The index maps over the 64 grid points: the first input's row-tile is the output tile's row index, the second
    input's row-tile is the output tile's column index, both inputs take their one lane-tile, and the output's tile
    indices stay below 8. -/
theorem tile_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 7 :=
  (by decide +kernel : ∀ t : Fin grid0.N, _)

/-- Every tile of the 8 × 8 tiling is some grid point's. -/
theorem tile_onto : ∀ (a b : Fin 8), ∃ t : Fin cfg0.N, win0_2.index t = ![a.val, b.val] :=
  (by decide +kernel : ∀ (a b : Fin 8), ∃ t : Fin grid0.N, win0_2.index t = ![a.val, b.val])

/-- WHAT POINT `t` WRITES BACK is tile `t` of the kernel matrix of the argument arrays. -/
theorem flushed_eq (c : Dev nD) (t : Fin cfg0.N) :
    (dats m 0 c).flushed 2 t = ((cfg0.win 2).blk t).view.read (Elt Ideal) (G (V m c main_arg0) (V m c main_arg1)) := by
  rw [Value.flushed2]
  unfold out0_2
  rw [View.canon_unit_zero origin_eq]
  simp only [View.ld_unit_zero (S := S1024x512) origin_eq]
  obtain ⟨e0, e1, e2, e3, e4, e5⟩ := tile_facts t
  funext j
  obtain ⟨r, s, rfl⟩ : ∃ (r s : Fin 1024), j = ix2 r s := ⟨j 0, j 1, eq_ix2 j⟩
  have hr : r.val < 1024 := r.isLt
  have hs : s.val < 1024 := s.isLt
  have hP : win0_2.index t (0 : Fin 2) * 1024 + r.val < 8192 := by omega
  have hQ : win0_2.index t (1 : Fin 2) * 1024 + s.val < 8192 := by omega
  have hemb : ((cfg0.win 2).blk t).view.emb (ix2 r s)
      = ix2 (⟨win0_2.index t (0 : Fin 2) * 1024 + r.val, hP⟩ : Fin 8192) (⟨win0_2.index t (1 : Fin 2) * 1024 + s.val, hQ⟩ : Fin 8192) := by
    funext a; apply Fin.ext
    match a with
    | ⟨0, _⟩ => show win0_2.index t (0 : Fin 2) * 1024 + 1 * r.val = win0_2.index t (0 : Fin 2) * 1024 + r.val; omega
    | ⟨1, _⟩ => show win0_2.index t (1 : Fin 2) * 1024 + 1 * s.val = win0_2.index t (1 : Fin 2) * 1024 + s.val; omega
  show k0_pay1 (F := Ideal) (iblk m c 0 t) (iblk m c 1 t) (ix2 r s)
    = G (V m c main_arg0) (V m c main_arg1) (((cfg0.win 2).blk t).view.emb (ix2 r s))
  rw [hemb, G_ix2]
  refine (Payload.pay_apply (iblk m c 0 t) (iblk m c 1 t) r s).trans ?_
  refine rbf_congr (V m c main_arg0) (V m c main_arg1) (iblk m c 0 t) (iblk m c 1 t) _ _ r s (fun k => ?_) (fun k => ?_)
  · show V m c main_arg0 (((cfg0.win 0).blk t).view.emb (ix2 r k)) = V m c main_arg0 (ix2 _ k)
    refine congrArg (V m c main_arg0) (funext fun a => Fin.ext ?_)
    have hk : k.val < 512 := k.isLt
    match a with
    | ⟨0, _⟩ => show win0_0.index t (0 : Fin 2) * 1024 + 1 * r.val = win0_2.index t (0 : Fin 2) * 1024 + r.val; omega
    | ⟨1, _⟩ => show win0_0.index t (1 : Fin 2) * 512 + 1 * k.val = k.val; omega
  · show V m c main_arg1 (((cfg0.win 1).blk t).view.emb (ix2 s k)) = V m c main_arg1 (ix2 _ k)
    refine congrArg (V m c main_arg1) (funext fun a => Fin.ext ?_)
    have hk : k.val < 512 := k.isLt
    match a with
    | ⟨0, _⟩ => show win0_1.index t (0 : Fin 2) * 1024 + 1 * s.val = win0_2.index t (1 : Fin 2) * 1024 + s.val; omega
    | ⟨1, _⟩ => show win0_1.index t (1 : Fin 2) * 512 + 1 * k.val = k.val; omega

/-- An index of the matrix is in point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the matrix: (i, j) is in tile (i / 1024, j / 1024), which some point writes back. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := tile_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE OUTPUT ARRAY after the run is the kernel matrix of the two argument arrays as launched. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run, read: every weakly fair execution terminates with the result at `G` of the arguments and the
    arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Rbf.Kernel

end
-- ==== Proof.RbfReference.lean ====
/-
  The reference program's result, read one operation at a time, is the kernel matrix `G` of its two arguments.
  At an index (p, q) the reference's chain is: the two row sums of squares (each the host's sum from the initial value
  0, so `0 + ∑ₖ`), each broadcast to the full matrix — along the columns for `x`, along the rows for `y` —, their sum,
  minus 2 times the contraction of row p of `x` with row q of `y`, clamped below at 0, times −1, exponentiated.
  The broadcasts only move indices: four index equations say that the composed index functions of the generated stages
  land on row p of `x` and row q of `y`. With them, the stages' read-at-an-index lemmas rewrite the reference's entry to
  `gauss` of the same three sums, up to the initial `0 +` of the two host sums.
-/
import proofs.«143935_j65481071397762_1_alg».proof.Proof.Gen.ReferenceIdeal.Read
import proofs.«143935_j65481071397762_1_alg».proof.Proof.RbfSpec
import Idealize.ShloMosaic.PureOps.Ideal.Laws

noncomputable section

namespace Cert.Rbf.Reference

open Cert.ReferenceIdeal Cert.ReferenceIdeal.Read Idealize.ShloMosaic Idealize.ShloMosaic.ValueIdx Cert.Rbf

/-- The contraction's left operand at output (p, q) and contraction index k is entry (p, k) of `x`. -/
theorem lidx_eq (p q : Fin 8192) (k : Fin 512) : lidx_main_v4 (ix2 p q) k = ix2 p k :=
  funext fun a => Fin.ext (by match a with | ⟨0, _⟩ => rfl | ⟨1, _⟩ => rfl)

/-- Its right operand there is entry (q, k) of `y`: the contraction is of rows with rows. -/
theorem ridx_eq (p q : Fin 8192) (k : Fin 512) : ridx_main_v4 (ix2 p q) k = ix2 q k :=
  funext fun a => Fin.ext (by match a with | ⟨0, _⟩ => rfl | ⟨1, _⟩ => rfl)

/-- The column of squared norms of `x`, broadcast along the columns: at (p, q) it sums row p of `x`. -/
theorem xrow_eq (p q : Fin 8192) (k : Fin 512) : idx_main_v1 (idx_main_v5 (idx_main_v7 (ix2 p q))) k = ix2 p k :=
  funext fun a => Fin.ext (by match a with | ⟨0, _⟩ => rfl | ⟨1, _⟩ => rfl)

/-- The row of squared norms of `y`, broadcast along the rows: at (p, q) it sums row q of `y`. -/
theorem yrow_eq (p q : Fin 8192) (k : Fin 512) : idx_main_v3 (idx_main_v6 (idx_main_v8 (ix2 p q))) k = ix2 q k :=
  funext fun a => Fin.ext (by match a with | ⟨0, _⟩ => rfl | ⟨1, _⟩ => rfl)

/-- The reference's last stage is `G` of the two arguments. -/
theorem reference_eq (x0 x1 : (⟨S8192x512, .f32⟩ : BufTy).Contents (Elt Ideal)) :
    val_main_v17 (F := Ideal) x0 x1 = G x0 x1 := by
  funext i
  obtain ⟨p, q, rfl⟩ : ∃ (p q : Fin 8192), i = ix2 p q := ⟨i 0, i 1, eq_ix2 i⟩
  rw [G_ix2, val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v7_apply, val_main_v5_apply,
    val_main_v1_apply, val_main_cst_apply, val_main_v8_apply, val_main_v6_apply, val_main_v3_apply,
    val_main_cst_0_apply]
  simp only [val_main_v0_apply, val_main_v2_apply, lidx_eq, ridx_eq, xrow_eq, yrow_eq,
    Ideal.hostUnary_exp_def, Ideal.mulf_def, Ideal.maximumf_def, Ideal.subf_def, Ideal.addf_def, Ideal.ofBits_def,
    Ideal.ofBits_zero_f32, zero_add, rbf, gauss, sqnorm, inner]

end Cert.Rbf.Reference

end
-- ==== Proof.lean ====
/-
  The Gaussian kernel matrix K[p, q] = exp (−‖x_p − y_q‖²) of two arrays of 8192 points in 512 dimensions, the squared
  distance taken through its expansion ‖x_p‖² + ‖y_q‖² − 2 ⟨x_p, y_q⟩ and clamped below at 0: a tiled kernel (an 8 × 8
  grid of 1024 × 1024 tiles, each from one row-tile of `x` and one row-tile of `y`, the inner products by a matrix
  product of the two tiles) against the same expression written on whole arrays.

  On the extended reals both programs compute, at every (p, q), the same expression of the same three sums over the 512
  coordinates — the two squared norms and the inner product — grouped the same way, with the same three literals (−1, 2
  and 0). The kernel differs only in how it lays the work out: it sums squares along the lanes of a tile and keeps the
  result as a column, transposes the column of `y`'s norms into a row, forms the inner products tile by tile with
  operands narrowed to bf16 (the identity on the extended reals), and writes one tile per grid point. So the proof is a
  reading of each side at an index (`Cert.Rbf.Reference.reference_eq`, `Cert.Rbf.Payload.pay_apply`), the observation
  that a tile of the matrix depends only on the rows its two input tiles hold, and that the 64 tiles cover the matrix
  (`Cert.Rbf.Kernel.final`). No law that would need the entries to be finite is used.

  The two kernel programs' frames are the generated ones; the reference's frame is its run with the result dropped;
  the idealization rewrote nothing, so there is nothing to preserve.
-/
import proofs.«143935_j65481071397762_1_alg».proof.Defs
import proofs.«143935_j65481071397762_1_alg».proof.Proof.Gen.Kernel
import proofs.«143935_j65481071397762_1_alg».proof.Proof.Gen.Kernel.Skeleton
import proofs.«143935_j65481071397762_1_alg».proof.Proof.Gen.Kernel.Launch
import proofs.«143935_j65481071397762_1_alg».proof.Proof.Gen.Kernel.Points
import proofs.«143935_j65481071397762_1_alg».proof.Proof.Gen.Kernel.Frame
import proofs.«143935_j65481071397762_1_alg».proof.Proof.Gen.KernelIdeal
import proofs.«143935_j65481071397762_1_alg».proof.Proof.Gen.KernelIdeal.Skeleton
import proofs.«143935_j65481071397762_1_alg».proof.Proof.Gen.KernelIdeal.Launch
import proofs.«143935_j65481071397762_1_alg».proof.Proof.Gen.KernelIdeal.Points
import proofs.«143935_j65481071397762_1_alg».proof.Proof.Gen.KernelIdeal.Frame
import proofs.«143935_j65481071397762_1_alg».proof.Proof.Gen.ReferenceIdeal
import proofs.«143935_j65481071397762_1_alg».proof.Proof.Gen.Pre_finite_inputs
import proofs.«143935_j65481071397762_1_alg».proof.Proof.Gen.KernelIdeal.Value
import proofs.«143935_j65481071397762_1_alg».proof.Proof.Gen.ReferenceIdeal.Run
import proofs.«143935_j65481071397762_1_alg».proof.Proof.Gen.ReferenceIdeal.Read
import proofs.«143935_j65481071397762_1_alg».proof.Proof.RbfKernel
import proofs.«143935_j65481071397762_1_alg».proof.Proof.RbfReference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs and keeps its arguments: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `y`, the tiled kernel ends with the kernel matrix `G x y` in its result and the
    reference ends with its last stage, which is `G` of its own arguments, hence of the same `x` and `y`. -/
theorem algebraic : Cert.algebraic_KernelIdeal_ReferenceIdeal := by
  intro m ρ m' ρ' _ hagree
  refine ⟨_, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Rbf.Reference.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
